-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16384x4096 .f32) (main_arg1 : FVec F S4096x1 .f32) (main_arg2 : FVec F S1x4096 .f32) (main_arg3 : FVec F S1 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S4096x2 : Shape := ⟨2, ![4096, 2]⟩
abbrev S1x1 : Shape := ⟨2, ![1, 1]⟩
abbrev S16384x1 : Shape := ⟨2, ![16384, 1]⟩
abbrev S512x4096 : Shape := ⟨2, ![512, 4096]⟩
abbrev S512x1 : Shape := ⟨2, ![512, 1]⟩
abbrev S512x2 : Shape := ⟨2, ![512, 2]⟩
abbrev S16384 : Shape := ⟨1, ![16384]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x1, .f32⟩
  | .hbm, ⟨2, _⟩ => ⟨S1x4096, .f32⟩
  | .hbm, ⟨3, _⟩ => ⟨S1, .f32⟩
  | .hbm, ⟨4, _⟩ => ⟨S4096x1, .f32⟩
  | .hbm, ⟨5, _⟩ => ⟨S4096x2, .f32⟩
  | .hbm, ⟨6, _⟩ => ⟨S1x1, .f32⟩
  | .hbm, ⟨7, _⟩ => ⟨S16384x1, .f32⟩
  | .hbm, ⟨8, _⟩ => ⟨S16384, .f32⟩
  | .local _ .vmem, ⟨0, _⟩ => ⟨S512x4096, .f32⟩
  | .local _ .vmem, ⟨1, _⟩ => ⟨S512x4096, .f32⟩
  | .local _ .vmem, ⟨2, _⟩ => ⟨S4096x2, .f32⟩
  | .local _ .vmem, ⟨3, _⟩ => ⟨S1x1, .f32⟩
  | .local _ .vmem, ⟨4, _⟩ => ⟨S512x1, .f32⟩
  | .local _ .vmem, ⟨5, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1x4096_S4096x1_1_0 : S1x4096.Transposes [1, 0] S4096x1
  concatenates_S4096x1_S4096x1_S4096x2_d1 : Shape.Concatenates [S4096x1, S4096x1] S4096x2 1
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S512x2_o0_0_S512x1 : S512x2.Slices ![0, 0] S512x1
  slices_S512x2_o0_1_S512x1 : S512x2.Slices ![0, 1] S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  dot_S512x4096_S4096x2_S512x2_1_0_0_1_n_n_wf : DotDims.WF S512x4096 S4096x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S4096x2.size a
  hwx0_1 : ∀ i : grid0.Coords, EltTy.bits .f32 = 32 ∨ (Rect.block (s := S4096x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S512x4096_S4096x2_S512x2_1_0_0_1_n_n : DotDims S512x4096 S4096x2 S512x2 where
  lhsContracting := [1]
  rhsContracting := [0]
  lhsNonContracting := [0]
  rhsNonContracting := [1]
  lhsBatch := []
  rhsBatch := []
  wf := dot_S512x4096_S4096x2_S512x2_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S16384x1 : Shape := ⟨2, ![16384, 1]⟩
abbrev S1x1 : Shape := ⟨2, ![1, 1]⟩
abbrev S16384 : Shape := ⟨1, ![16384]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1, .f32⟩
  | .hbm, ⟨2, _⟩ => ⟨S1x4096, .f32⟩
  | .hbm, ⟨3, _⟩ => ⟨S1, .f32⟩
  | .hbm, ⟨4, _⟩ => ⟨S16384x1, .f32⟩
  | .hbm, ⟨5, _⟩ => ⟨S4096x1, .f32⟩
  | .hbm, ⟨6, _⟩ => ⟨S16384x1, .f32⟩
  | .hbm, ⟨7, _⟩ => ⟨S1x1, .f32⟩
  | .hbm, ⟨8, _⟩ => ⟨S16384x1, .f32⟩
  | .hbm, ⟨9, _⟩ => ⟨S16384x1, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  transposes_S1x4096_S4096x1_1_0 : S1x4096.Transposes [1, 0] S4096x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x4096_S4096x1_S16384x1_1_0_0_1_n_n_wf : DotDims.WF S16384x4096 S4096x1 S16384x1 [1] [0] [0] [1] [] []

variable [Facts₀]

def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.Spec.lean ====
/-
  The function both programs compute, and the one law of extended-real arithmetic that joins their two spellings.

  For a data matrix `x` (16384 rows of length 4096), a direction `v` (a column of length 4096), a weight row `w`
  (length 4096) and a bias `b` (one number), row `r` of the result is

      -( (x_r · v)² ) + ( x_r · w + b ),

  where `x_r · v = Σ_k x[r,k] · v[k,0]` and `x_r · w = Σ_k x[r,k] · w[0,k]` are sums over the 4096 columns.
  The kernel fuses `v` and the transposed `w` into one 4096 × 2 matrix, takes both dot products of a row in one
  matrix product, and finishes with `((0 - q·q) + l) + b`; the reference writes `-(q·q) + (l + b)`. On the extended
  reals `0 - a = -a` and addition is associative, at the infinities too, so no finiteness is needed.
-/
import Idealize.ShloMosaic.PureOps.Ideal
import Idealize.ShloMosaic.Lib.ValueIdx

noncomputable section

namespace Cert.QuadLinear

open Idealize.ShloMosaic Idealize.ShloMosaic.ValueIdx
open scoped BigOperators

/-- The shapes of the four arguments, of the fused weight matrix and bias cell the kernel is launched on, and of the
    result before and after its unit axis is dropped. -/
abbrev SX : Shape := ⟨2, ![16384, 4096]⟩
abbrev SV : Shape := ⟨2, ![4096, 1]⟩
abbrev SW : Shape := ⟨2, ![1, 4096]⟩
abbrev SB : Shape := ⟨1, ![1]⟩
abbrev SF : Shape := ⟨2, ![4096, 2]⟩
abbrev SC : Shape := ⟨2, ![1, 1]⟩
abbrev SR : Shape := ⟨2, ![16384, 1]⟩
abbrev SO : Shape := ⟨1, ![16384]⟩

/-- Row `r` of `x` against column `c` of a matrix with 4096 rows. -/
def rowDot {C : Nat} (x : SX.Idx → EReal) (f : (⟨2, ![4096, C]⟩ : Shape).Idx → EReal) (r : Fin 16384) (c : Fin C) : EReal :=
  ∑ k : Fin 4096, x (ix2 r k) * f (ix2 k c)

/-- Row `r` of `x` against the weight row `w`. -/
def rowDotT (x : SX.Idx → EReal) (w : SW.Idx → EReal) (r : Fin 16384) : EReal :=
  ∑ k : Fin 4096, x (ix2 r k) * w (ix2 0 k)

/-- THE RESULT, as the reference spells it: `-(q·q) + (l + b)` with `q = x_r · v`, `l = x_r · w`. -/
def result (x : SX.Idx → EReal) (v : SV.Idx → EReal) (w : SW.Idx → EReal) (b : SB.Idx → EReal) : SO.Idx → EReal :=
  fun i => -(rowDot x v ⟨(i 0).val, (i 0).isLt⟩ 0 * rowDot x v ⟨(i 0).val, (i 0).isLt⟩ 0)
    + (rowDotT x w ⟨(i 0).val, (i 0).isLt⟩ + b (ix1 0))

/-- What the kernel's region leaves at row `r` of its 16384 × 1 output, from the data, the fused 4096 × 2 weights `f`
    (column 0 the quadratic direction, column 1 the linear weights) and the 1 × 1 bias cell: `((0 - q·q) + l) + b`. -/
def fused (x : SX.Idx → EReal) (f : SF.Idx → EReal) (b : SC.Idx → EReal) : SR.Idx → EReal :=
  fun i => ((0 - rowDot x f ⟨(i 0).val, (i 0).isLt⟩ 0 * rowDot x f ⟨(i 0).val, (i 0).isLt⟩ 0)
    + rowDot x f ⟨(i 0).val, (i 0).isLt⟩ 1) + b (ix2 0 0)

/-- The one law: subtracting from zero is negation and addition re-associates, on every extended real. -/
theorem fused_form (q l b : EReal) : ((0 - q * q) + l) + b = -(q * q) + (l + b) := by
  rw [zero_sub, add_assoc]

end Cert.QuadLinear

end
-- ==== Proof.KernelPayload.lean ====
/-
  The kernel body's arithmetic, read at an index. One grid point loads a 512 × 4096 block `x` of the data, the whole
  fused 4096 × 2 weight matrix `f` and the 1 × 1 bias cell `b`, and stores the 512 × 1 block

      ((0 - q·q) + l) + b,     q = (x · f)[:, 0],   l = (x · f)[:, 1],

  where `x · f` is ONE matrix product into a zero accumulator: at the ideal values the two changes of float format
  are the identity and the product's entry (p, c) is `Σ_k x[p,k] · f[k,c]` over the 4096 columns. The two column
  slices read that sum at `c = 0` and `c = 1`; the bias cell is broadcast down the rows.
-/
import proofs.«102436_j77962246357369_1_alg».proof.Proof.Gen.KernelIdeal.Skeleton
import proofs.«102436_j77962246357369_1_alg».proof.Proof.Spec
import Idealize.ShloMosaic.Lib.Pipeline.Value
import Idealize.ShloMosaic.Lib.ValueIdx
import Idealize.ShloMosaic.PureOps.Ideal.Laws

noncomputable section

namespace Cert.QuadLinear.Body

open Idealize.ShloMosaic Idealize.ShloMosaic.ValueIdx Cert.KernelIdeal Cert.KernelIdeal.Gen
open scoped BigOperators

/-! ## The matrix product's operand indices, axis by axis -/

theorem lhs_axis0 (i : S512x2.Idx) (q : dot_S512x4096_S4096x2_S512x2_1_0_0_1_n_n.contr.Idx) :
    (dot_S512x4096_S4096x2_S512x2_1_0_0_1_n_n.lhsIdx i q 0).val = (i 0).val := by
  unfold DotDims.lhsIdx
  rw [dif_neg (show ¬(0 : Fin S512x4096.rank) ∈ dot_S512x4096_S4096x2_S512x2_1_0_0_1_n_n.lhsBatch by decide), dif_pos (show (0 : Fin S512x4096.rank) ∈ dot_S512x4096_S4096x2_S512x2_1_0_0_1_n_n.lhsNonContracting by decide)]
  rfl
theorem lhs_axis1 (i : S512x2.Idx) (q : dot_S512x4096_S4096x2_S512x2_1_0_0_1_n_n.contr.Idx) :
    (dot_S512x4096_S4096x2_S512x2_1_0_0_1_n_n.lhsIdx i q 1).val = (q ⟨0, by decide⟩).val :=
  dot_S512x4096_S4096x2_S512x2_1_0_0_1_n_n.lhsIdx_val_of_single rfl i q
theorem rhs_axis0 (i : S512x2.Idx) (q : dot_S512x4096_S4096x2_S512x2_1_0_0_1_n_n.contr.Idx) :
    (dot_S512x4096_S4096x2_S512x2_1_0_0_1_n_n.rhsIdx i q 0).val = (q ⟨0, by decide⟩).val :=
  dot_S512x4096_S4096x2_S512x2_1_0_0_1_n_n.rhsIdx_val_of_single rfl i q
theorem rhs_axis1 (i : S512x2.Idx) (q : dot_S512x4096_S4096x2_S512x2_1_0_0_1_n_n.contr.Idx) :
    (dot_S512x4096_S4096x2_S512x2_1_0_0_1_n_n.rhsIdx i q 1).val = (i 1).val := by
  unfold DotDims.rhsIdx
  rw [dif_neg (show ¬(1 : Fin S4096x2.rank) ∈ dot_S512x4096_S4096x2_S512x2_1_0_0_1_n_n.rhsBatch by decide), dif_pos (show (1 : Fin S4096x2.rank) ∈ dot_S512x4096_S4096x2_S512x2_1_0_0_1_n_n.rhsNonContracting by decide)]
  rfl

/-! ## The product at an index -/

/-- The body's matrix product of the loaded blocks, the format changes and the identity shape cast included. -/
def prod (x : Vec Ideal S512x4096 .f32) (f : Vec Ideal S4096x2 .f32) : FVec Ideal S512x2 .f32 :=
  matmul dot_S512x4096_S4096x2_S512x2_1_0_0_1_n_n none (truncf .bf16 x bitsLt_bf16_f32)
    (truncf .bf16 (shapeCast S4096x2 f shapeCasts_S4096x2_S4096x2) bitsLt_bf16_f32) (constant S512x2 .f32 0x00000000#32)

/-- Entry (p, c) of the product is the sum over the 4096 columns of `x[p,k] · f[k,c]`. -/
theorem prod_apply (x : Vec Ideal S512x4096 .f32) (f : Vec Ideal S4096x2 .f32) (i : S512x2.Idx) :
    prod x f i = ∑ k : Fin 4096, x (ix2 (⟨(i 0).val, (i 0).isLt⟩ : Fin 512) k) * f (ix2 k (⟨(i 1).val, (i 1).isLt⟩ : Fin 2)) := by
  unfold prod
  simp only [matmul]
  rw [Ideal.matmul_constant_zero_apply, ← Equiv.sum_comp (contrEquiv1 dot_S512x4096_S4096x2_S512x2_1_0_0_1_n_n 4096 rfl rfl).symm]
  refine Finset.sum_congr rfl fun k _ => ?_
  have hk := contrEquiv1_symm_val dot_S512x4096_S4096x2_S512x2_1_0_0_1_n_n 4096 rfl rfl k
  have el : dot_S512x4096_S4096x2_S512x2_1_0_0_1_n_n.lhsIdx i ((contrEquiv1 dot_S512x4096_S4096x2_S512x2_1_0_0_1_n_n 4096 rfl rfl).symm k)
      = ix2 (⟨(i 0).val, (i 0).isLt⟩ : Fin 512) k := funext fun a => Fin.ext (by
    match a with
    | ⟨0, _⟩ => exact lhs_axis0 _ _
    | ⟨1, _⟩ => exact (lhs_axis1 _ _).trans hk)
  have er : dot_S512x4096_S4096x2_S512x2_1_0_0_1_n_n.rhsIdx i ((contrEquiv1 dot_S512x4096_S4096x2_S512x2_1_0_0_1_n_n 4096 rfl rfl).symm k)
      = ix2 k (⟨(i 1).val, (i 1).isLt⟩ : Fin 2) := funext fun a => Fin.ext (by
    match a with
    | ⟨0, _⟩ => exact (rhs_axis0 _ _).trans hk
    | ⟨1, _⟩ => exact rhs_axis1 _ _)
  rw [el, er, truncf_apply, truncf_apply, shapeCast_self]

/-! ## The stored block at an index -/

/-- The stored payload is the epilogue over the product's two column slices. -/
theorem pay_eq (x : Vec Ideal S512x4096 .f32) (f : Vec Ideal S4096x2 .f32) (b : Vec Ideal S1x1 .f32) :
    k0_pay1 (F := Ideal) x f b
      = addf (addf (subf (broadcast S512x1 (Scalar.ofBits .f32 0x00000000#32))
            (mulf (extractStridedSlice S512x1 ![0, 0] (prod x f) slices_S512x2_o0_0_S512x1)
              (extractStridedSlice S512x1 ![0, 0] (prod x f) slices_S512x2_o0_0_S512x1)))
          (extractStridedSlice S512x1 ![0, 1] (prod x f) slices_S512x2_o0_1_S512x1))
        (broadcastTo S512x1 (shapeCast S1x1 b shapeCasts_S1x1_S1x1) broadcasts_S1x1_S512x1) := rfl

/-- Row `p` of the stored block: `((0 - q·q) + l) + b` with `q`, `l` the row's dot products with the two columns of `f`. -/
theorem pay_apply (x : Vec Ideal S512x4096 .f32) (f : Vec Ideal S4096x2 .f32) (b : Vec Ideal S1x1 .f32) (y : S512x1.Idx) :
    k0_pay1 (F := Ideal) x f b y
      = ((0 - (∑ k : Fin 4096, x (ix2 (⟨(y 0).val, (y 0).isLt⟩ : Fin 512) k) * f (ix2 k (0 : Fin 2)))
              * (∑ k : Fin 4096, x (ix2 (⟨(y 0).val, (y 0).isLt⟩ : Fin 512) k) * f (ix2 k (0 : Fin 2))))
          + (∑ k : Fin 4096, x (ix2 (⟨(y 0).val, (y 0).isLt⟩ : Fin 512) k) * f (ix2 k (1 : Fin 2))))
        + b (ix2 (0 : Fin 1) (0 : Fin 1)) := by
  rw [pay_eq]
  have h0 : extractStridedSlice S512x1 ![0, 0] (prod x f) slices_S512x2_o0_0_S512x1 y
      = prod x f (ix2 (⟨(y 0).val, (y 0).isLt⟩ : Fin 512) (0 : Fin 2)) :=
    extractStridedSlice_apply _ _ _ y _ (fun a => by
      match a with
      | ⟨0, _⟩ => show (y 0).val = 0 + (y 0).val; omega
      | ⟨1, _⟩ => have hy : (y 1).val < 1 := (y 1).isLt; show 0 = 0 + (y 1).val; omega)
  have h1 : extractStridedSlice S512x1 ![0, 1] (prod x f) slices_S512x2_o0_1_S512x1 y
      = prod x f (ix2 (⟨(y 0).val, (y 0).isLt⟩ : Fin 512) (1 : Fin 2)) :=
    extractStridedSlice_apply _ _ _ y _ (fun a => by
      match a with
      | ⟨0, _⟩ => show (y 0).val = 0 + (y 0).val; omega
      | ⟨1, _⟩ => have hy : (y 1).val < 1 := (y 1).isLt; show 1 = 1 + (y 1).val; omega)
  have hb : broadcastTo S512x1 (shapeCast S1x1 b shapeCasts_S1x1_S1x1) broadcasts_S1x1_S512x1 y = b (ix2 (0 : Fin 1) (0 : Fin 1)) := by
    rw [shapeCast_self]
    exact broadcastTo_apply b broadcasts_S1x1_S512x1 y _ (fun a => by
      match a with
      | ⟨0, _⟩ => show 0 = if (1 : Nat) = 1 then 0 else _; rw [if_pos rfl]
      | ⟨1, _⟩ => show 0 = if (1 : Nat) = 1 then 0 else _; rw [if_pos rfl])
  rw [addf_apply, addf_apply, subf_apply, mulf_apply, broadcast_apply, h0, h1, hb, prod_apply, prod_apply]
  show Ideal.ofBits .f32 0x00000000#32 - _ * _ + _ + _ = _
  rw [Ideal.ofBits_zero_f32]

end Cert.QuadLinear.Body

end
-- ==== Proof.FusedWeights.lean ====
/-
  The host lines around the kernel's region, read at an index. Before the region the weight row is transposed to a
  column and concatenated to the right of the direction, giving the fused 4096 × 2 matrix: its column 0 is the
  direction and its column 1 the weight row, so a row's dot products with the two columns are `x_r · v` and `x_r · w`.
  The bias is reshaped to a 1 × 1 cell. After the region the 16384 × 1 output loses its unit axis. Put together, the
  kernel's result is the specification's `result`, by the one law `fused_form`.
-/
import proofs.«102436_j77962246357369_1_alg».proof.Proof.Spec
import Idealize.ShloMosaic.Lib.Pipeline.Value
import Idealize.ShloMosaic.Lib.ValueIdx

noncomputable section

namespace Cert.QuadLinear

open Idealize.ShloMosaic Idealize.ShloMosaic.ValueIdx
open scoped BigOperators

/-- Column 0 of the fused matrix is the direction. -/
theorem fusedCol0 (v u : SV.Idx → EReal) (h : Shape.Concatenates [SV, SV] SF 1) (k : Fin 4096) :
    concatenate SF 1 [⟨SV, v⟩, ⟨SV, u⟩] h (ix2 k (0 : Fin 2)) = v (ix2 k (0 : Fin 1)) :=
  concatenate_pair_apply_left (1 : Fin SF.rank) v u h (ix2 k (0 : Fin 2)) rfl (ix2 k (0 : Fin 1)) (fun b => by
    match b with
    | ⟨0, _⟩ => rfl
    | ⟨1, _⟩ => rfl)

/-- Column 1 of the fused matrix is the second piece's only column. -/
theorem fusedCol1 (v u : SV.Idx → EReal) (h : Shape.Concatenates [SV, SV] SF 1) (k : Fin 4096) :
    concatenate SF 1 [⟨SV, v⟩, ⟨SV, u⟩] h (ix2 k (1 : Fin 2)) = u (ix2 k (0 : Fin 1)) :=
  concatenate_pair_apply_right (1 : Fin SF.rank) v u h (ix2 k (1 : Fin 2)) rfl rfl (ix2 k (0 : Fin 1)) (fun b hb => by
    match b with
    | ⟨0, _⟩ => rfl
    | ⟨1, _⟩ => exact absurd rfl hb) rfl

/-- The weight row transposed, read in its only column, is the row's entry. -/
theorem transposedRow (w : SW.Idx → EReal) (h : SW.Transposes [1, 0] SV) (k : Fin 4096) :
    transpose SV [1, 0] w h (ix2 k (0 : Fin 1)) = w (ix2 (0 : Fin 1) k) :=
  transpose_apply [1, 0] w h (ix2 k (0 : Fin 1)) (ix2 (0 : Fin 1) k) (fun b => by
    match b with
    | ⟨0, _⟩ => rfl
    | ⟨1, _⟩ => rfl)

/-- The bias reshaped to a cell is the bias. -/
theorem biasCell (b : SB.Idx → EReal) (h : SB.ShapeCasts SC) :
    shapeCast SC b h (ix2 (0 : Fin 1) (0 : Fin 1)) = b (ix1 (0 : Fin 1)) :=
  shapeCast_apply b h (ix2 (0 : Fin 1) (0 : Fin 1)) (ix1 (0 : Fin 1)) (by
    rewrite [Shape.rowMajor_val_two, Shape.rowMajor_val_one]; rfl)

/-- A row's dot product with column 0 of the fused matrix is its dot product with the direction; -/
theorem rowDot_fused0 (x : SX.Idx → EReal) (v : SV.Idx → EReal) (w : SW.Idx → EReal) (ht : SW.Transposes [1, 0] SV)
    (h : Shape.Concatenates [SV, SV] SF 1) (r : Fin 16384) :
    rowDot x (concatenate SF 1 [⟨SV, v⟩, ⟨SV, transpose SV [1, 0] w ht⟩] h) r (0 : Fin 2) = rowDot x v r (0 : Fin 1) := by
  unfold rowDot
  exact Finset.sum_congr rfl fun k _ => by rw [fusedCol0]

/-- with column 1, its dot product with the weight row. -/
theorem rowDot_fused1 (x : SX.Idx → EReal) (v : SV.Idx → EReal) (w : SW.Idx → EReal) (ht : SW.Transposes [1, 0] SV)
    (h : Shape.Concatenates [SV, SV] SF 1) (r : Fin 16384) :
    rowDot x (concatenate SF 1 [⟨SV, v⟩, ⟨SV, transpose SV [1, 0] w ht⟩] h) r (1 : Fin 2) = rowDotT x w r := by
  unfold rowDot rowDotT
  exact Finset.sum_congr rfl fun k _ => by rw [fusedCol1, transposedRow]

/-- THE KERNEL'S RESULT IS THE RESULT: the region's output on the fused weights and the bias cell, its unit axis dropped. -/
theorem fused_eq_result (x : SX.Idx → EReal) (v : SV.Idx → EReal) (w : SW.Idx → EReal) (b : SB.Idx → EReal)
    (ht : SW.Transposes [1, 0] SV) (hc : Shape.Concatenates [SV, SV] SF 1) (hb : SB.ShapeCasts SC) (ho : SR.ShapeCasts SO) :
    shapeCast SO (fused x (concatenate SF 1 [⟨SV, v⟩, ⟨SV, transpose SV [1, 0] w ht⟩] hc) (shapeCast SC b hb)) ho
      = result x v w b := by
  funext i
  rw [shapeCast_apply _ ho i (ix2 (⟨(i 0).val, (i 0).isLt⟩ : Fin 16384) (0 : Fin 1)) (by
    rewrite [Shape.rowMajor_val_two, Shape.rowMajor_val_one]; show (i 0).val * 1 + 0 = (i 0).val; omega)]
  unfold fused result
  rw [rowDot_fused0, rowDot_fused1, biasCell, fused_form]

end Cert.QuadLinear

end
-- ==== Proof.KernelValue.lean ====
/-
  What the idealized kernel leaves in its result, read off its frame run. The grid has 32 points; point `t` stages
  rows `512·t … 512·t + 511` of the data, the whole fused weight matrix and the bias cell, and writes back rows
  `512·t … 512·t + 511` of the 16384 × 1 output. So what point `t` writes back is block `t` of ONE function of the arrays
  the region is entered with (`fused`): the row of the data under row `p` of block `t` is row `512·t + p`. The 32 blocks
  tile the output, so after the run the output IS that function; the host line after the region drops its unit axis;
  the host lines before the region built the fused matrix and the bias cell from the arguments.
-/
import proofs.«102436_j77962246357369_1_alg».proof.Proof.Gen.KernelIdeal.Frame
import proofs.«102436_j77962246357369_1_alg».proof.Proof.KernelPayload
import proofs.«102436_j77962246357369_1_alg».proof.Proof.FusedWeights
import Idealize.ShloMosaic.Lib.Pipeline.Value
import Idealize.ShloMosaic.Lib.StableHlo.Run

set_option maxRecDepth 16384

noncomputable section

namespace Cert.QuadLinear.Region

open Idealize.ShloMosaic Idealize.ShloMosaic.TcCoe Idealize.ShloMosaic.ValueIdx Idealize.SL.Sem
open Idealize.ShloMosaic.StableHlo
open Cert.KernelIdeal Cert.KernelIdeal.Gen Cert.QuadLinear
open Idealize.ShloMosaic.Pipeline (Dat)
open scoped BigOperators

variable (m : (ℓ : Loc nD τ sig) → Buf (Elt Ideal) ℓ) (ρ : Dev nD → PrngReg)

/-! ## The arrays the region is entered with -/

/-- The data, the fused weights and the bias cell as the region finds them, at their literal types. -/
abbrev dataArr (c : Dev nD) : SX.Idx → EReal := V m c main_arg0
abbrev fusedArr (c : Dev nD) : SF.Idx → EReal := V m c main_v1
abbrev cellArr (c : Dev nD) : SC.Idx → EReal := V m c main_v2

/-- The fused weights are the direction with the transposed weight row to its right. -/
theorem fusedArr_eq (c : Dev nD) :
    fusedArr m c = concatenate SF 1 [⟨SV, m ((c : Thread nD τ).loc main_arg1)⟩,
      ⟨SV, transpose SV [1, 0] (m ((c : Thread nD τ).loc main_arg2)) transposes_S1x4096_S4096x1_1_0⟩] concatenates_S4096x1_S4096x1_S4096x2_d1 := by
  show StableHlo.after hostOps0 (fun b => m (c, b)) (Proc.devRef .tc main_v1) = _
  after_results

/-- The bias cell is the bias reshaped. -/
theorem cellArr_eq (c : Dev nD) :
    cellArr m c = shapeCast SC (m ((c : Thread nD τ).loc main_arg3)) shapeCasts_S1_S1x1 := by
  show StableHlo.after hostOps0 (fun b => m (c, b)) (Proc.devRef .tc main_v2) = _
  after_results
  rfl

/-- The data is the argument. -/
theorem dataArr_eq (c : Dev nD) : dataArr m c = m ((c : Thread nD τ).loc main_arg0) := V_main_arg0 m c

/-! ## The blocks a point stages -/

/-- The input blocks at a point, at their literal types. -/
abbrev dataBlk (c : Dev nD) (t : Fin cfg0.N) : Vec Ideal S512x4096 .f32 := iblk m c 0 t
abbrev fusedBlk (c : Dev nD) (t : Fin cfg0.N) : Vec Ideal S4096x2 .f32 := iblk m c 1 t
abbrev cellBlk (c : Dev nD) (t : Fin cfg0.N) : Vec Ideal S1x1 .f32 := iblk m c 2 t

theorem zero_offsets : (![0, 0] : Fin 2 → Nat) = fun _ => 0 := funext fun a => by fin_cases a <;> rfl

/-- The printed index maps, decided over the grid: the data's block moves down the rows with the output's, and the
    fused weights and the bias cell stay at block 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every block of rows is some point's. -/
theorem idx_onto : ∀ q : Fin 32, ∃ t : Fin cfg0.N, win0_3.index t = ![q.val, 0] :=
  (by decide +kernel : ∀ q : Fin 32, ∃ t : Fin grid0.N, win0_3.index t = ![q.val, 0])

/-- Row `p` of the data's block at point `t` is row `r` of the data, when `r` is `p` rows into the output's block. -/
theorem dataBlk_apply (c : Dev nD) (t : Fin cfg0.N) (p : Fin 512) (k : Fin 4096) (r : Fin 16384)
    (hr : r.val = win0_3.index t (0 : Fin 2) * 512 + p.val) :
    dataBlk m c t (ix2 p k) = dataArr m c (ix2 r k) := by
  obtain ⟨e0, e1, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The fused weights' block is the whole matrix. -/
theorem fusedBlk_apply (c : Dev nD) (t : Fin cfg0.N) (k : Fin 4096) (d : Fin 2) :
    fusedBlk m c t (ix2 k d) = fusedArr m c (ix2 k d) := by
  obtain ⟨-, -, e2, e3, -⟩ := idx_facts t
  show V m c main_v1 (((cfg0.win 1).blk t).view.emb (ix2 k d)) = V m c main_v1 (ix2 k d)
  refine congrArg _ (funext fun a => Fin.ext ?_)
  match a with
  | ⟨0, _⟩ => show win0_1.index t (0 : Fin 2) * 4096 + 1 * k.val = k.val; omega
  | ⟨1, _⟩ => show win0_1.index t (1 : Fin 2) * 2 + 1 * d.val = d.val; omega

/-- The bias cell's block is the cell. -/
theorem cellBlk_apply (c : Dev nD) (t : Fin cfg0.N) :
    cellBlk m c t (ix2 (0 : Fin 1) (0 : Fin 1)) = cellArr m c (ix2 (0 : Fin 1) (0 : Fin 1)) := by
  obtain ⟨-, -, -, -, e4, e5, -⟩ := idx_facts t
  show V m c main_v2 (((cfg0.win 2).blk t).view.emb (ix2 (0 : Fin 1) (0 : Fin 1))) = V m c main_v2 (ix2 (0 : Fin 1) (0 : Fin 1))
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-! ## What a point writes back -/

/-- WHAT POINT `t` WRITES BACK is block `t` of `fused` of the arrays the region is entered with. -/
theorem flushed_eq (c : Dev nD) (t : Fin cfg0.N) :
    (dats m 0 c).flushed 3 t
      = ((cfg0.win 3).blk t).view.read (Elt Ideal) (fused (dataArr m c) (fusedArr m c) (cellArr m c)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S4096x2) zero_offsets,
    View.ld_unit_zero (S := S1x1) zero_offsets]
  funext j
  refine (Body.pay_apply (dataBlk m c t) (fusedBlk m c t) (cellBlk m c t) j).trans ?_
  show _ = fused (dataArr m c) (fusedArr m c) (cellArr m c) (((cfg0.win 3).blk t).view.emb j)
  have hj : (j 0).val < 512 := (j 0).isLt
  obtain ⟨-, -, -, -, -, -, e6, -⟩ := idx_facts t
  have hrow : ((((cfg0.win 3).blk t).view.emb j) 0).val = win0_3.index t (0 : Fin 2) * 512 + (j 0).val := by
    show win0_3.index t (0 : Fin 2) * 512 + 1 * (j 0).val = _; omega
  unfold fused rowDot
  simp only [dataBlk_apply m c t ⟨(j 0).val, (j 0).isLt⟩ _ ⟨((((cfg0.win 3).blk t).view.emb j) 0).val, ((((cfg0.win 3).blk t).view.emb j) 0).isLt⟩ hrow,
    fusedBlk_apply, cellBlk_apply]

/-! ## The output after the run -/

/-- An index of the output is in point `t`'s block iff each coordinate is in the block's range on its axis. -/
theorem mem_blk (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v3).slice (win0_3.rect t)).set ↔ _
  rw [View.set_slice_whole, Rect.mem_set_unit]
  exact Iff.rfl

/-- Row `r` is in the block of point `r / 512`: the blocks tile the output. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- THE OUTPUT after the run is `fused` of the arrays the region is entered with. -/
theorem output_eq (c : Dev nD) :
    (dats m 0 c).arrAt 3 cfg0.N = fused (dataArr m c) (fusedArr m c) (cellArr m c) :=
  (dats m 0 c).arrAt_eq_of_cover 3 _ (fun t _ => flushed_eq m c t) cover

/-! ## The result after the host line that follows the region -/

/-- The result is the output with its unit axis dropped: the specification's `result` of the arguments. -/
theorem tail_eq (c : Dev nD) :
    Pipeline.afterTail₀ cfgs (dats m) 0 (V0 m) [hostOps1] c main_v4
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  rw [(Pipeline.withArrays_arr spec0 launch0.win.arr_inj c _ _ 3).trans (output_eq m c), fusedArr_eq, cellArr_eq, dataArr_eq]
  exact fused_eq_result _ _ _ _ _ _ _ _

/-! ## The run, read -/

/-- Every weakly fair execution of the idealized kernel's @main terminates with the result at `result` of the arguments
    and the arguments unchanged. -/
theorem run : θ_run defs (onTc (τ := τ) (main (F := Ideal))) ⟨m, fun _ => 0, ρ⟩ fun r => ∀ c : Dev nD,
      r.2.mem ((c.tc : Thread nD τ).loc main_v4)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuadLinear.Region

end
-- ==== Proof.RefValue.lean ====
/-
  The reference, read at an index: its ten host operations compose to `-(q·q) + (l + b)` with `q` the row's dot
  product with the direction (the first `dot_general`), `l` its dot product with the weight row (the second
  `dot_general`, whose right operand is the weight row transposed) and `b` the bias, broadcast twice; the final reshape
  only drops the unit axis. Each step is the generated read-at-an-index lemma of its operation; what is added here are
  the index equations that name the composed operand indices by their coordinates.
-/
import proofs.«102436_j77962246357369_1_alg».proof.Proof.Gen.ReferenceIdeal.Run
import proofs.«102436_j77962246357369_1_alg».proof.Proof.Gen.ReferenceIdeal.Read
import proofs.«102436_j77962246357369_1_alg».proof.Proof.Spec

noncomputable section

namespace Cert.QuadLinear.Ref

open Idealize.ShloMosaic Idealize.ShloMosaic.ValueIdx Cert.ReferenceIdeal Cert.ReferenceIdeal.Read Cert.QuadLinear
open scoped BigOperators

/-- Dropping the result's unit axis keeps the row. -/
theorem row_of_flat (i : S16384.Idx) (k : Fin 4096) :
    lidx_main_v0 (idx_main_v9 i) k = ix2 (⟨(i 0).val, (i 0).isLt⟩ : Fin 16384) k :=
  funext fun a => Fin.ext (by match a with | ⟨0, _⟩ => exact Nat.div_one _ | ⟨1, _⟩ => rfl)

/-- The same for the second product's left operand. -/
theorem row_of_flat' (i : S16384.Idx) (k : Fin 4096) :
    lidx_main_v2 (idx_main_v9 i) k = ix2 (⟨(i 0).val, (i 0).isLt⟩ : Fin 16384) k :=
  funext fun a => Fin.ext (by match a with | ⟨0, _⟩ => exact Nat.div_one _ | ⟨1, _⟩ => rfl)

/-- The first product's right operand is read in its only column. -/
theorem col_of_flat (i : S16384.Idx) (k : Fin 4096) :
    ridx_main_v0 (idx_main_v9 i) k = ix2 k (0 : Fin 1) :=
  funext fun a => Fin.ext (by match a with | ⟨0, _⟩ => rfl | ⟨1, _⟩ => rfl)

/-- The second product's right operand is the weight row transposed: entry `k` of the row. -/
theorem wrow_of_flat (i : S16384.Idx) (k : Fin 4096) :
    idx_main_v1 (ridx_main_v2 (idx_main_v9 i) k) = ix2 (0 : Fin 1) k :=
  funext fun a => Fin.ext (by match a with | ⟨0, _⟩ => rfl | ⟨1, _⟩ => rfl)

/-- The bias, broadcast to a cell and then down the rows, is read at its one entry. -/
theorem bias_of_flat (i : S16384.Idx) :
    idx_main_v3 (idx_main_v4 (idx_main_v9 i)) = ix1 (0 : Fin 1) :=
  funext fun a => Fin.ext (by match a with | ⟨0, _⟩ => rfl)

/-- THE REFERENCE IS THE RESULT: index by index. -/
theorem val_eq_result (x : (⟨S16384x4096, .f32⟩ : BufTy).Contents (Elt Ideal)) (v : (⟨S4096x1, .f32⟩ : BufTy).Contents (Elt Ideal))
    (w : (⟨S1x4096, .f32⟩ : BufTy).Contents (Elt Ideal)) (b : (⟨S1, .f32⟩ : BufTy).Contents (Elt Ideal)) :
    val_main_v9 (F := Ideal) x v w b = result x v w b := by
  funext i
  rw [val_main_v9_apply, val_main_v8_apply, val_main_v7_apply, val_main_v6_apply, val_main_v5_apply, val_main_v0_apply,
    val_main_v2_apply, val_main_v4_apply, val_main_v3_apply]
  simp only [val_main_v1_apply, row_of_flat, row_of_flat', col_of_flat, wrow_of_flat, bias_of_flat,
    Ideal.addf_def, Ideal.mulf_def, Ideal.hostNegf_def, Ideal.negf_def]
  rfl

end Cert.QuadLinear.Ref

end
-- ==== Proof.lean ====
/-
  The certificate of a fused quadratic-plus-linear layer. For data `x` (16384 × 4096), a direction `v` (4096 × 1), a
  weight row `w` (1 × 4096) and a bias `b`, the result's row `r` is `-((x_r · v)²) + (x_r · w + b)`.

  The kernel concatenates `v` and the transposed `w` into one 4096 × 2 matrix, and on each of 32 row tiles takes both
  dot products in one matrix product and stores `((0 - q·q) + l) + b`; the reference takes two matrix products and
  writes `-(q·q) + (l + b)`. At the ideal values a change of float format is the identity and a matrix product's
  entry is the plain sum of products, so both programs compute the two dot products as the same sums over the 4096
  columns; `0 - a = -a` and the associativity of addition, which hold on all extended reals, join the two
  epilogues. The precondition is never opened.

  * Proof/Spec.lean — the result as one function of the arguments, and the law `fused_form`.
  * Proof/RefValue.lean — the reference's run is that function.
  * Proof/KernelPayload.lean — the kernel body's stored block at an index.
  * Proof/FusedWeights.lean — the host lines around the region at an index; the kernel's result is that function.
  * Proof/KernelValue.lean — the kernel's frame run read: blocks, cover, the output, the result.
  The three frames are the generated ones (the reference's is its run with the result dropped); the ideal pass rewrote
  nothing, so `preserves` is `True`.
-/
import proofs.«102436_j77962246357369_1_alg».proof.Defs
import proofs.«102436_j77962246357369_1_alg».proof.Proof.Gen.Kernel
import proofs.«102436_j77962246357369_1_alg».proof.Proof.Gen.Kernel.Skeleton
import proofs.«102436_j77962246357369_1_alg».proof.Proof.Gen.Kernel.Launch
import proofs.«102436_j77962246357369_1_alg».proof.Proof.Gen.Kernel.Points
import proofs.«102436_j77962246357369_1_alg».proof.Proof.Gen.Kernel.Frame
import proofs.«102436_j77962246357369_1_alg».proof.Proof.Gen.KernelIdeal
import proofs.«102436_j77962246357369_1_alg».proof.Proof.Gen.KernelIdeal.Skeleton
import proofs.«102436_j77962246357369_1_alg».proof.Proof.Gen.KernelIdeal.Launch
import proofs.«102436_j77962246357369_1_alg».proof.Proof.Gen.KernelIdeal.Points
import proofs.«102436_j77962246357369_1_alg».proof.Proof.Gen.KernelIdeal.Frame
import proofs.«102436_j77962246357369_1_alg».proof.Proof.Gen.ReferenceIdeal
import proofs.«102436_j77962246357369_1_alg».proof.Proof.Gen.ReferenceIdeal.Run
import proofs.«102436_j77962246357369_1_alg».proof.Proof.Gen.ReferenceIdeal.Read
import proofs.«102436_j77962246357369_1_alg».proof.Proof.Gen.Pre_finite_inputs
import proofs.«102436_j77962246357369_1_alg».proof.Proof.KernelValue
import proofs.«102436_j77962246357369_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with row `r` of the result at `-((x_r · v)²) + (x_r · w + b)` of arguments
    that agree: the kernel's run read (`Region.run`) and the reference's generated run, which is the same function
    (`Ref.val_eq_result`). -/
theorem algebraic : Cert.algebraic_KernelIdeal_ReferenceIdeal := by
  intro m ρ m' ρ' _ hagree
  refine ⟨_, Cert.QuadLinear.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.QuadLinear.Ref.val_eq_result, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
